-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_5" .f32 0x3E4CCCCD#32 ((1 / 5 : ℝ) : EReal)
  ∧ IdealRules.named_const.Statement Cert.KernelIdeal.κ "inv_5" .f32 0x3E4CCCCD#32 ((1 / 5 : ℝ) : EReal)
  ∧ IdealRules.named_const.Statement Cert.KernelIdeal.κ "inv_5" .f32 0x3E4CCCCD#32 ((1 / 5 : ℝ) : EReal)
  ∧ IdealRules.named_const.Statement Cert.KernelIdeal.κ "inv_5" .f32 0x3E4CCCCD#32 ((1 / 5 : ℝ) : EReal)
  ∧ IdealRules.named_const.Statement Cert.KernelIdeal.κ "inv_5" .f32 0x3E4CCCCD#32 ((1 / 5 : ℝ) : EReal)
  ∧ IdealRules.named_const.Statement Cert.KernelIdeal.κ "inv_5" .f32 0x3E4CCCCD#32 ((1 / 5 : ℝ) : EReal)
  ∧ IdealRules.named_const.Statement Cert.KernelIdeal.κ "inv_5" .f32 0x3E4CCCCD#32 ((1 / 5 : ℝ) : EReal)
  ∧ IdealRules.named_const.Statement Cert.KernelIdeal.κ "inv_5" .f32 0x3E4CCCCD#32 ((1 / 5 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S16 : Shape := ⟨1, ![16]⟩
abbrev S3200000 : Shape := ⟨1, ![3200000]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S100000x3 .f32) (main_arg1 : FVec F S16 .f32) (main_arg2 : IVec S3200000 32) (main_arg3 : IVec S3200000 32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S16 .f32 := Host.absf main_arg1
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  let main_c_1 : IVec S_ 1 := constantI S_ 1 1#1
  let main_v7 : IVec S_ 1 := (fun x v => Host.reduce IntOp.andi x v reducesTo_S16_S_d0 h_S_) main_v6 main_c_1
  let main_v8 : IVec S_ 1 := andi main_v3 main_v7
  main_v8
-- ==== Kernel.lean ====
abbrev S100000x3 : Shape := ⟨2, ![100000, 3]⟩
abbrev S16 : Shape := ⟨1, ![16]⟩
abbrev S3200000 : Shape := ⟨1, ![3200000]⟩
abbrev S_ : Shape := ⟨0, ![]⟩
abbrev S3200000x1 : Shape := ⟨2, ![3200000, 1]⟩
abbrev S3200000x3 : Shape := ⟨2, ![3200000, 3]⟩
abbrev S400000x8 : Shape := ⟨2, ![400000, 8]⟩
abbrev S8x400000 : Shape := ⟨2, ![8, 400000]⟩
abbrev S400000x128 : Shape := ⟨2, ![400000, 128]⟩
abbrev S8x3200 : Shape := ⟨2, ![8, 3200]⟩
abbrev S3200x128 : Shape := ⟨2, ![3200, 128]⟩
abbrev S16x1 : Shape := ⟨2, ![16, 1]⟩
abbrev S1x3200 : Shape := ⟨2, ![1, 3200]⟩
abbrev S3200 : Shape := ⟨1, ![3200]⟩
abbrev S16x3200 : Shape := ⟨2, ![16, 3200]⟩
abbrev S3200x16 : Shape := ⟨2, ![3200, 16]⟩
abbrev S3200000x16 : Shape := ⟨2, ![3200000, 16]⟩

abbrev nBuf : Space → Nat
  | .hbm => 34
  | .vmem => 5
  | .smem => 0
  | _ => 0

abbrev bufTy : (tb : Table) → Fin (tcTables nBuf tb) → BufTy
  | .hbm, ⟨0, _⟩ => ⟨S100000x3, .f32⟩
  | .hbm, ⟨1, _⟩ => ⟨S16, .f32⟩
  | .hbm, ⟨2, _⟩ => ⟨S3200000, .i32⟩
  | .hbm, ⟨3, _⟩ => ⟨S3200000, .i32⟩
  | .hbm, ⟨4, _⟩ => ⟨S_, .i32⟩
  | .hbm, ⟨5, _⟩ => ⟨S3200000, .i32⟩
  | .hbm, ⟨6, _⟩ => ⟨S3200000, .i1⟩
  | .hbm, ⟨7, _⟩ => ⟨S_, .i32⟩
  | .hbm, ⟨8, _⟩ => ⟨S3200000, .i32⟩
  | .hbm, ⟨9, _⟩ => ⟨S3200000, .i32⟩
  | .hbm, ⟨10, _⟩ => ⟨S3200000, .i32⟩
  | .hbm, ⟨11, _⟩ => ⟨S3200000x1, .i32⟩
  | .hbm, ⟨12, _⟩ => ⟨S3200000x3, .f32⟩
  | .hbm, ⟨13, _⟩ => ⟨S_, .i32⟩
  | .hbm, ⟨14, _⟩ => ⟨S3200000, .i32⟩
  | .hbm, ⟨15, _⟩ => ⟨S3200000, .i1⟩
  | .hbm, ⟨16, _⟩ => ⟨S_, .i32⟩
  | .hbm, ⟨17, _⟩ => ⟨S3200000, .i32⟩
  | .hbm, ⟨18, _⟩ => ⟨S3200000, .i32⟩
  | .hbm, ⟨19, _⟩ => ⟨S3200000, .i32⟩
  | .hbm, ⟨20, _⟩ => ⟨S3200000x1, .i32⟩
  | .hbm, ⟨21, _⟩ => ⟨S3200000x3, .f32⟩
  | .hbm, ⟨22, _⟩ => ⟨S3200000x3, .f32⟩
  | .hbm, ⟨23, _⟩ => ⟨S3200000x3, .f32⟩
  | .hbm, ⟨24, _⟩ => ⟨S_, .f32⟩
  | .hbm, ⟨25, _⟩ => ⟨S3200000, .f32⟩
  | .hbm, ⟨26, _⟩ => ⟨S_, .f32⟩
  | .hbm, ⟨27, _⟩ => ⟨S3200000, .f32⟩
  | .hbm, ⟨28, _⟩ => ⟨S3200000, .f32⟩
  | .hbm, ⟨29, _⟩ => ⟨S3200000, .f32⟩
  | .hbm, ⟨30, _⟩ => ⟨S400000x8, .f32⟩
  | .hbm, ⟨31, _⟩ => ⟨S8x400000, .f32⟩
  | .hbm, ⟨32, _⟩ => ⟨S400000x128, .f32⟩
  | .hbm, ⟨33, _⟩ => ⟨S3200000x16, .f32⟩
  | .local _ .vmem, ⟨0, _⟩ => ⟨S8x3200, .f32⟩
  | .local _ .vmem, ⟨1, _⟩ => ⟨S8x3200, .f32⟩
  | .local _ .vmem, ⟨2, _⟩ => ⟨S16, .f32⟩
  | .local _ .vmem, ⟨3, _⟩ => ⟨S3200x128, .f32⟩
  | .local _ .vmem, ⟨4, _⟩ => ⟨S3200x128, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3200x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  reducesTo_S3200000x3_S3200000_d1 : S3200000x3.ReducesTo [1] S3200000
  h_S_ : 0 < S_.numel
  shapeCasts_S3200000_S400000x8 : S3200000.ShapeCasts S400000x8
  transposes_S400000x8_S8x400000_1_0 : S400000x8.Transposes [1, 0] S8x400000
  inb_S16_S16_0 : ∀ a, (![0] : Fin 1 → Nat) a + S16.size a ≤ S16.size a
  h_S16 : 0 < S16.numel
  shapeCasts_S16_S16x1 : S16.ShapeCasts S16x1
  inb_S8x3200_S1x3200_0_0 : ∀ a, (![0, 0] : Fin 2 → Nat) a + S1x3200.size a ≤ S8x3200.size a
  h_S1x3200 : 0 < S1x3200.numel
  shapeCasts_S1x3200_S3200 : S1x3200.ShapeCasts S3200
  shapeCasts_S3200_S1x3200 : S3200.ShapeCasts S1x3200
  broadcasts_S16x1_S16x3200 : S16x1.Broadcasts S16x3200
  broadcasts_S1x3200_S16x3200 : S1x3200.Broadcasts S16x3200
  transposes_S16x3200_p1_0_S3200x16 : S16x3200.Transposes [1, 0] S3200x16
  inb_S3200x128_S3200x16_0_0 : ∀ a, (![0, 0] : Fin 2 → Nat) a + S3200x16.size a ≤ S3200x128.size a
  h_S3200x16 : 0 < S3200x16.numel
  inb_S8x3200_S1x3200_1_0 : ∀ a, (![1, 0] : Fin 2 → Nat) a + S1x3200.size a ≤ S8x3200.size a
  inb_S3200x128_S3200x16_0_16 : ∀ a, (![0, 16] : Fin 2 → Nat) a + S3200x16.size a ≤ S3200x128.size a
  inb_S8x3200_S1x3200_2_0 : ∀ a, (![2, 0] : Fin 2 → Nat) a + S1x3200.size a ≤ S8x3200.size a
  inb_S3200x128_S3200x16_0_32 : ∀ a, (![0, 32] : Fin 2 → Nat) a + S3200x16.size a ≤ S3200x128.size a
  inb_S8x3200_S1x3200_3_0 : ∀ a, (![3, 0] : Fin 2 → Nat) a + S1x3200.size a ≤ S8x3200.size a
  inb_S3200x128_S3200x16_0_48 : ∀ a, (![0, 48] : Fin 2 → Nat) a + S3200x16.size a ≤ S3200x128.size a
  inb_S8x3200_S1x3200_4_0 : ∀ a, (![4, 0] : Fin 2 → Nat) a + S1x3200.size a ≤ S8x3200.size a
  inb_S3200x128_S3200x16_0_64 : ∀ a, (![0, 64] : Fin 2 → Nat) a + S3200x16.size a ≤ S3200x128.size a
  inb_S8x3200_S1x3200_5_0 : ∀ a, (![5, 0] : Fin 2 → Nat) a + S1x3200.size a ≤ S8x3200.size a
  inb_S3200x128_S3200x16_0_80 : ∀ a, (![0, 80] : Fin 2 → Nat) a + S3200x16.size a ≤ S3200x128.size a
  inb_S8x3200_S1x3200_6_0 : ∀ a, (![6, 0] : Fin 2 → Nat) a + S1x3200.size a ≤ S8x3200.size a
  inb_S3200x128_S3200x16_0_96 : ∀ a, (![0, 96] : Fin 2 → Nat) a + S3200x16.size a ≤ S3200x128.size a
  inb_S8x3200_S1x3200_7_0 : ∀ a, (![7, 0] : Fin 2 → Nat) a + S1x3200.size a ≤ S8x3200.size a
  inb_S3200x128_S3200x16_0_112 : ∀ a, (![0, 112] : Fin 2 → Nat) a + S3200x16.size a ≤ S3200x128.size a
  shapeCasts_S400000x128_S3200000x16 : S400000x128.ShapeCasts S3200000x16
  gather_S100000x3_S3200000x1_S3200000x3_1_0_n_n_0_1_13_wf : GatherDims.WF S100000x3 S3200000x1 S3200000x3 [1] [0] [] [0] [] 1 ![1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x3200.size a ≤ S8x400000.size a
  hwx0_0 : ∀ i : grid0.Coords, EltTy.bits .f32 = 32 ∨ (Rect.block (s := S8x400000) S8x3200.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16.size a ≤ S16.size a
  hwx0_1 : ∀ i : grid0.Coords, EltTy.bits .f32 = 32 ∨ (Rect.block (s := S16) S16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x128.size a ≤ S400000x128.size a
  hwx0_2 : ∀ i : grid0.Coords, EltTy.bits .f32 = 32 ∨ (Rect.block (s := S400000x128) S3200x128.size (cc0_transform_2 i) (hinb0_2 i)).WholeWords (EltTy.packing .f32)

variable [Facts₀]

def gather_S100000x3_S3200000x1_S3200000x3_1_0_n_n_0_1_13 : GatherDims S100000x3 S3200000x1 S3200000x3 where
  offsetDims := [1]
  collapsedSliceDims := [0]
  operandBatchingDims := []
  startIndicesBatchingDims := []
  startIndexMap := [0]
  indexVectorDim := 1
  sliceSizes := ![1, 3]
  wf := gather_S100000x3_S3200000x1_S3200000x3_1_0_n_n_0_1_13_wf

abbrev win0_0 : Pipeline.Window sig grid0 :=
  Pipeline.Window.ofSpec (Memref.whole main_v20) S8x3200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S3200x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x3 : Shape := ⟨2, ![100000, 3]⟩
abbrev S16 : Shape := ⟨1, ![16]⟩
abbrev S3200000 : Shape := ⟨1, ![3200000]⟩
abbrev S_ : Shape := ⟨0, ![]⟩
abbrev S3200000x1 : Shape := ⟨2, ![3200000, 1]⟩
abbrev S3200000x3 : Shape := ⟨2, ![3200000, 3]⟩
abbrev S1x16 : Shape := ⟨2, ![1, 16]⟩
abbrev S3200000x16 : Shape := ⟨2, ![3200000, 16]⟩

abbrev nBuf : Space → Nat
  | .hbm => 63
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S16, .f32⟩
  | .hbm, ⟨2, _⟩ => ⟨S3200000, .i32⟩
  | .hbm, ⟨3, _⟩ => ⟨S3200000, .i32⟩
  | .hbm, ⟨4, _⟩ => ⟨S_, .i32⟩
  | .hbm, ⟨5, _⟩ => ⟨S3200000, .i32⟩
  | .hbm, ⟨6, _⟩ => ⟨S3200000, .i1⟩
  | .hbm, ⟨7, _⟩ => ⟨S_, .i32⟩
  | .hbm, ⟨8, _⟩ => ⟨S3200000, .i32⟩
  | .hbm, ⟨9, _⟩ => ⟨S3200000, .i32⟩
  | .hbm, ⟨10, _⟩ => ⟨S3200000, .i32⟩
  | .hbm, ⟨11, _⟩ => ⟨S3200000x1, .i32⟩
  | .hbm, ⟨12, _⟩ => ⟨S3200000x3, .f32⟩
  | .hbm, ⟨13, _⟩ => ⟨S_, .i32⟩
  | .hbm, ⟨14, _⟩ => ⟨S3200000, .i32⟩
  | .hbm, ⟨15, _⟩ => ⟨S3200000, .i1⟩
  | .hbm, ⟨16, _⟩ => ⟨S_, .i32⟩
  | .hbm, ⟨17, _⟩ => ⟨S3200000, .i32⟩
  | .hbm, ⟨18, _⟩ => ⟨S3200000, .i32⟩
  | .hbm, ⟨19, _⟩ => ⟨S3200000, .i32⟩
  | .hbm, ⟨20, _⟩ => ⟨S3200000x1, .i32⟩
  | .hbm, ⟨21, _⟩ => ⟨S3200000x3, .f32⟩
  | .hbm, ⟨22, _⟩ => ⟨S3200000x3, .f32⟩
  | .hbm, ⟨23, _⟩ => ⟨S3200000x3, .f32⟩
  | .hbm, ⟨24, _⟩ => ⟨S_, .f32⟩
  | .hbm, ⟨25, _⟩ => ⟨S3200000, .f32⟩
  | .hbm, ⟨26, _⟩ => ⟨S_, .f32⟩
  | .hbm, ⟨27, _⟩ => ⟨S3200000, .f32⟩
  | .hbm, ⟨28, _⟩ => ⟨S3200000, .f32⟩
  | .hbm, ⟨29, _⟩ => ⟨S3200000, .f32⟩
  | .hbm, ⟨30, _⟩ => ⟨S_, .f32⟩
  | .hbm, ⟨31, _⟩ => ⟨S3200000, .f32⟩
  | .hbm, ⟨32, _⟩ => ⟨S3200000, .f32⟩
  | .hbm, ⟨33, _⟩ => ⟨S3200000, .f32⟩
  | .hbm, ⟨34, _⟩ => ⟨S3200000, .f32⟩
  | .hbm, ⟨35, _⟩ => ⟨S3200000, .f32⟩
  | .hbm, ⟨36, _⟩ => ⟨S_, .f32⟩
  | .hbm, ⟨37, _⟩ => ⟨S3200000, .f32⟩
  | .hbm, ⟨38, _⟩ => ⟨S3200000, .f32⟩
  | .hbm, ⟨39, _⟩ => ⟨S_, .f32⟩
  | .hbm, ⟨40, _⟩ => ⟨S3200000, .f32⟩
  | .hbm, ⟨41, _⟩ => ⟨S3200000, .f32⟩
  | .hbm, ⟨42, _⟩ => ⟨S3200000, .f32⟩
  | .hbm, ⟨43, _⟩ => ⟨S_, .f32⟩
  | .hbm, ⟨44, _⟩ => ⟨S3200000, .f32⟩
  | .hbm, ⟨45, _⟩ => ⟨S3200000, .f32⟩
  | .hbm, ⟨46, _⟩ => ⟨S3200000, .f32⟩
  | .hbm, ⟨47, _⟩ => ⟨S3200000, .f32⟩
  | .hbm, ⟨48, _⟩ => ⟨S_, .f32⟩
  | .hbm, ⟨49, _⟩ => ⟨S3200000, .f32⟩
  | .hbm, ⟨50, _⟩ => ⟨S3200000, .f32⟩
  | .hbm, ⟨51, _⟩ => ⟨S3200000, .f32⟩
  | .hbm, ⟨52, _⟩ => ⟨S3200000, .f32⟩
  | .hbm, ⟨53, _⟩ => ⟨S3200000, .f32⟩
  | .hbm, ⟨54, _⟩ => ⟨S3200000x1, .f32⟩
  | .hbm, ⟨55, _⟩ => ⟨S1x16, .f32⟩
  | .hbm, ⟨56, _⟩ => ⟨S3200000x1, .f32⟩
  | .hbm, ⟨57, _⟩ => ⟨S3200000x16, .f32⟩
  | .hbm, ⟨58, _⟩ => ⟨S3200000x16, .f32⟩
  | .hbm, ⟨59, _⟩ => ⟨S3200000x16, .f32⟩
  | .hbm, ⟨60, _⟩ => ⟨S3200000x16, .f32⟩
  | .hbm, ⟨61, _⟩ => ⟨S3200000x16, .f32⟩
  | .hbm, ⟨62, _⟩ => ⟨S3200000x16, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  reducesTo_S3200000x3_S3200000_d1 : S3200000x3.ReducesTo [1] S3200000
  h_S_ : 0 < S_.numel
  bcast_S16_S1x16_1 : S16.BroadcastsInDim S1x16 (![1] : Fin 1 → Fin S1x16.rank)
  bcast_S1x16_S3200000x16_0_1 : S1x16.BroadcastsInDim S3200000x16 (![0, 1] : Fin 2 → Fin S3200000x16.rank)
  bcast_S3200000x1_S3200000x16_0_1 : S3200000x1.BroadcastsInDim S3200000x16 (![0, 1] : Fin 2 → Fin S3200000x16.rank)
  gather_S100000x3_S3200000x1_S3200000x3_1_0_n_n_0_1_13_wf : GatherDims.WF S100000x3 S3200000x1 S3200000x3 [1] [0] [] [0] [] 1 ![1, 3]

variable [Facts₀]

def gather_S100000x3_S3200000x1_S3200000x3_1_0_n_n_0_1_13 : GatherDims S100000x3 S3200000x1 S3200000x3 where
  offsetDims := [1]
  collapsedSliceDims := [0]
  operandBatchingDims := []
  startIndicesBatchingDims := []
  startIndexMap := [0]
  indexVectorDim := 1
  sliceSizes := ![1, 3]
  wf := gather_S100000x3_S3200000x1_S3200000x3_1_0_n_n_0_1_13_wf

class Facts : Prop extends Facts₀ where

variable [Facts]
-- ==== Proof.Envelope.lean ====
/-
  The radial basis value at ONE edge and ONE frequency, as a function on the extended reals, in the two
  arrangements the two programs compute it in, and the law that joins them.

  With `x` the scaled distance, both programs form
      env(x) · sin(f · x),   env(x) = 1/x − 28·x⁵ + 48·x⁶ − 21·x⁷,
  the four terms summed left to right in the same order. They differ in two places only.
  * The scaled distance: one side multiplies the distance by the rational 1/5, the other divides it by 5.
    On the extended reals division by a nonzero real IS multiplication by its reciprocal, at every
    argument including the two infinities, so the two scaled distances are one number.
  * The powers: one side builds x⁵, x⁶, x⁷ as (x²·x²)·x, then ·x, then ·x, and multiplies each by its
    coefficient afterwards; the other builds x⁵ as x·(x²·x²) and forms (c·x⁵)·x and ((c·x⁵)·x)·x.
    Multiplication of extended reals is commutative and associative (also at 0·∞, which is 0 on both
    sides), so each pair of products is equal. No distributivity and no cancellation is used, hence no
    finiteness of the distance or of the frequency.
  The coefficient words (1, −28, 48, −21) are the same on both sides and are never evaluated; only the
  divisor 5 is, to apply the division law.
-/
import Idealize.ShloMosaic.PureOps.Ideal

noncomputable section

namespace Cert.Rbf

open Idealize.ShloMosaic

/-- The numerator 1 of the envelope's first term, as its f32 word. -/
abbrev cOne : EReal := Ideal.ofBits .f32 0x3F800000#32
/-- The coefficient −28 of x⁵, as its f32 word. -/
abbrev cFive : EReal := Ideal.ofBits .f32 0xC1E00000#32
/-- The coefficient 48 of x⁶, as its f32 word. -/
abbrev cSix : EReal := Ideal.ofBits .f32 0x42400000#32
/-- The coefficient −21 of x⁷, as its f32 word. -/
abbrev cSeven : EReal := Ideal.ofBits .f32 0xC1A80000#32
/-- The cutoff 5, as its f32 word. -/
abbrev cCutoff : EReal := Ideal.ofBits .f32 0x40A00000#32

/-- The word of 5.0 denotes the real 5. -/
theorem cCutoff_eq : cCutoff = ((5 : ℝ) : EReal) := by
  simp [cCutoff, Ideal.ofBits, Ideal.ieee, -EReal.coe_mul]; norm_num

/-- The envelope with its powers built upwards: x⁵ = (x²·x²)·x, x⁶ = x⁵·x, x⁷ = x⁶·x, each then scaled. -/
def envUp (x : EReal) : EReal :=
  Ideal.div cOne x + cFive * (x * x * (x * x) * x) + cSix * (x * x * (x * x) * x * x)
    + cSeven * (x * x * (x * x) * x * x * x)

/-- The envelope with x⁵ = x·(x²·x²) scaled first and the remaining factors of x multiplied on after. -/
def envAfter (x : EReal) : EReal :=
  Ideal.div cOne x + cFive * (x * (x * x * (x * x))) + cSix * (x * (x * x * (x * x))) * x
    + cSeven * (x * (x * x * (x * x))) * x * x

/-- The two envelopes are one function: commutativity and associativity of the product, term by term. -/
theorem envUp_eq_envAfter (x : EReal) : envUp x = envAfter x := by
  unfold envUp envAfter
  have h5 : x * x * (x * x) * x = x * (x * x * (x * x)) := mul_comm _ _
  have h6 : cSix * (x * x * (x * x) * x * x) = cSix * (x * (x * x * (x * x))) * x := by
    rw [h5]; simp only [mul_assoc]
  have h7 : cSeven * (x * x * (x * x) * x * x * x) = cSeven * (x * (x * x * (x * x))) * x * x := by
    rw [h5]; simp only [mul_assoc]
  rw [h6, h7, h5]

/-- One basis value, the distance scaled by the product with 1/5 and the powers built upwards. -/
def basisScaled (d f : EReal) : EReal :=
  envUp (d * ((1 / 5 : ℝ) : EReal)) * Ideal.sin (f * (d * ((1 / 5 : ℝ) : EReal)))

/-- One basis value, the distance scaled by the quotient by the cutoff and the factors multiplied on after. -/
def basisDivided (d f : EReal) : EReal :=
  envAfter (Ideal.div d cCutoff) * Ideal.sin (f * Ideal.div d cCutoff)

/-- The two basis values are one function of the distance and the frequency, on all of the extended reals. -/
theorem basisScaled_eq_basisDivided (d f : EReal) : basisScaled d f = basisDivided d f := by
  unfold basisScaled basisDivided
  rw [cCutoff_eq, Ideal.div_coe (by norm_num : (5 : ℝ) ≠ 0), envUp_eq_envAfter]

end Cert.Rbf

end
-- ==== Proof.Slab.lean ====
/-
  One 16-column slab of the kernel's output block.

  The body handles the eight rows of its 8×3200 distance block one after the other; row j becomes the slab of
  columns 16·j … 16·j+15 of the 3200×128 output block. Every slab is the same function of its row `v`
  (1×3200) and of the frequencies as a column `w` (16×1): with x = v[0,p]·(1/5),
      slab[p, r] = env(x) · sin(w[r,0] · x),
  computed as a 16×3200 array (frequencies down, edges across) and transposed.
  The body's text is cut into parts by position, so the eight slabs are spelt three ways — whole, with the
  frequency column made on the spot, or with the powers of x carried over from the previous part — and the
  first section says they are one term. The second reads that term at an index: each layout operation
  (a vector laid as a row, a row or a column repeated over the other axis, the transpose) reads ONE entry
  of its operand, and the arithmetic in between is entry by entry.
-/
import proofs.«428367_j2439541424494_3_alg».proof.Proof.Gen.KernelIdeal.Skeleton
import proofs.«428367_j2439541424494_3_alg».proof.Proof.Envelope
import Idealize.ShloMosaic.Lib.Pipeline.Value
import Idealize.ShloMosaic.Lib.ValueIdx
import Idealize.ShloMosaic.PureOps.IdealRules

noncomputable section

namespace Cert.KernelIdeal.Slab

open Cert.KernelIdeal Cert.KernelIdeal.Gen Idealize.ShloMosaic Idealize.ShloMosaic.ValueIdx

/-! ## The layout operations of a slab, each read at an index -/

section Layout
variable {α : Type}

/-- A row 1×3200 read as a vector: entry p is the row's entry (0, p). -/
theorem vecOfRow_apply (v : S1x3200.Idx → α) (h : S1x3200.ShapeCasts S3200) (p : Fin 3200) :
    shapeCast S3200 v h (ix1 p) = v (ix2 0 p) :=
  shapeCast_apply v h (ix1 p) (ix2 0 p) (by
    rw [Shape.rowMajor_val_one, Shape.rowMajor_val_two]
    show (0 : Nat) * 3200 + p.val = p.val
    omega)

/-- A vector laid as a row and repeated down 16 rows: entry (r, p) is the vector's entry p. -/
theorem rowsOfVec_apply (y : S3200.Idx → α) (h1 : S3200.ShapeCasts S1x3200) (h2 : S1x3200.Broadcasts S16x3200)
    (r : Fin 16) (p : Fin 3200) :
    broadcastTo S16x3200 (shapeCast S1x3200 y h1) h2 (ix2 r p) = y (ix1 p) := by
  refine (broadcastTo_apply _ h2 (ix2 r p) (ix2 0 p) (fun a => ?_)).trans ?_
  · match a with
    | ⟨0, _⟩ => rfl
    | ⟨1, _⟩ => rfl
  · exact shapeCast_apply y h1 (ix2 0 p) (ix1 p) (by
      rw [Shape.rowMajor_val_one, Shape.rowMajor_val_two]
      show p.val = (0 : Nat) * 3200 + p.val
      omega)

/-- A column 16×1 repeated across 3200 columns: entry (r, p) is the column's entry (r, 0). -/
theorem colsOfCol_apply (w : S16x1.Idx → α) (h : S16x1.Broadcasts S16x3200) (r : Fin 16) (p : Fin 3200) :
    broadcastTo S16x3200 w h (ix2 r p) = w (ix2 r 0) :=
  broadcastTo_apply w h (ix2 r p) (ix2 r 0) (fun a => by
    match a with
    | ⟨0, _⟩ => rfl
    | ⟨1, _⟩ => rfl)

/-- The transpose of a 16×3200 array: entry (p, r) is the array's entry (r, p). -/
theorem transposed_apply (z : S16x3200.Idx → α) (h : S16x3200.Transposes [1, 0] S3200x16) (p : Fin 3200) (r : Fin 16) :
    transpose S3200x16 [1, 0] z h (ix2 p r) = z (ix2 r p) :=
  transpose_apply [1, 0] z h (ix2 p r) (ix2 r p) (fun b => by
    match b with
    | ⟨0, _⟩ => rfl
    | ⟨1, _⟩ => rfl)

end Layout

/-! ## The eight slabs are one term -/

section OneTerm
variable {F : FTy → Type} [FloatOps F] [Named F]

/-- The slab of a row, given the frequency column: the canonical spelling. -/
abbrev slab (w : FVec F S16x1 .f32) (v : Vec F S1x3200 .f32) : FVec F S3200x16 .f32 := k0_pay10 w v

/-- The frequencies as a column. -/
abbrev freqCol (f : Vec F S16 .f32) : FVec F S16x1 .f32 := k0_pay2 f

/-- Row 0: the frequency column is made on the spot. -/
theorem pay3_eq (f : Vec F S16 .f32) (v : Vec F S1x3200 .f32) : k0_pay3 f v = slab (freqCol f) v := rfl
/-- Rows 2, 3, 5, 6: spelt whole. -/
theorem pay11_eq (w : FVec F S16x1 .f32) (v : Vec F S1x3200 .f32) : k0_pay11 w v = slab w v := rfl
theorem pay18_eq (w : FVec F S16x1 .f32) (v : Vec F S1x3200 .f32) : k0_pay18 w v = slab w v := rfl
theorem pay19_eq (w : FVec F S16x1 .f32) (v : Vec F S1x3200 .f32) : k0_pay19 w v = slab w v := rfl
/-- Rows 1, 4, 7: the scaled distance, its powers 5, 6, 7 and its reciprocal come from the previous part. -/
theorem pay9_eq (w : FVec F S16x1 .f32) (v : Vec F S1x3200 .f32) :
    k0_pay9 w (k0_pay4 v) (k0_pay5 v) (k0_pay6 v) (k0_pay7 v) (k0_pay8 v) (Scalar.ofBits .f32 0xC1E00000#32) = slab w v := rfl
theorem pay17_eq (w : FVec F S16x1 .f32) (v : Vec F S1x3200 .f32) :
    k0_pay17 w (k0_pay12 v) (k0_pay13 v) (k0_pay14 v) (k0_pay15 v) (k0_pay16 v) (Scalar.ofBits .f32 0xC1E00000#32) = slab w v := rfl
theorem pay1_eq (w : FVec F S16x1 .f32) (v : Vec F S1x3200 .f32) :
    k0_pay1 w (k0_pay20 v) (k0_pay21 v) (k0_pay22 v) (k0_pay23 v) (k0_pay24 v) (Scalar.ofBits .f32 0xC1E00000#32) = slab w v := rfl

end OneTerm

/-! ## The slab at an index -/

/-- The named scale is the rational 1/5 on the extended reals. -/
theorem scale_eq : Named.named (F := Ideal) κ "inv_5" (φ := .f32) 0x3E4CCCCD#32 = ((1 / 5 : ℝ) : EReal) :=
  IdealRules.named_const.ideal_named_scalar _ _ _ _ rfl

/-- The frequency column's entry (r, 0) is the frequency r. -/
theorem freqCol_apply (f : Vec Ideal S16 .f32) (r : Fin 16) : freqCol (F := Ideal) f (ix2 r 0) = f (ix1 r) :=
  shapeCast_apply f shapeCasts_S16_S16x1 (ix2 r 0) (ix1 r) (by
    rw [Shape.rowMajor_val_one, Shape.rowMajor_val_two]
    show r.val = r.val * 1 + 0
    omega)

/-- Entry (p, r) of a row's slab is the basis value of the row's entry p and the column's entry r: the transpose, the
    two repeated rows and the repeated column each read one entry, the row read as a vector reads the row's entry
    (0, p), the scale is 1/5, and what is left is the envelope and the sine spelt out entry by entry. -/
theorem slab_apply (w : FVec Ideal S16x1 .f32) (v : Vec Ideal S1x3200 .f32) (p : Fin 3200) (r : Fin 16) :
    slab (F := Ideal) w v (ix2 p r) = Cert.Rbf.basisScaled (v (ix2 0 p)) (w (ix2 r 0)) := by
  show k0_pay10 (F := Ideal) w v (ix2 p r) = _
  unfold k0_pay10
  refine (transposed_apply _ _ p r).trans ?_
  refine (congrArg₂ (fun a b : EReal => a * Ideal.sin b) (rowsOfVec_apply _ _ _ r p)
    (congrArg₂ (fun a b : EReal => a * b) (colsOfCol_apply w _ r p) (rowsOfVec_apply _ _ _ r p))).trans ?_
  have hds : (mulf (F := Ideal) (shapeCast S3200 v shapeCasts_S1x3200_S3200)
        (broadcast S3200 (Named.named (F := Ideal) κ "inv_5" (φ := .f32) 0x3E4CCCCD#32)) : FVec Ideal S3200 .f32) (ix1 p)
      = v (ix2 0 p) * ((1 / 5 : ℝ) : EReal) :=
    congrArg₂ (fun a b : EReal => a * b) (vecOfRow_apply v _ p) scale_eq
  unfold Cert.Rbf.basisScaled
  rw [← hds]
  rfl

end Cert.KernelIdeal.Slab

end
-- ==== Proof.Block.lean ====
/-
  The kernel's output block at one grid point, as ONE function of its two input blocks.

  The body leaves in its 3200×128 staging buffer eight slabs side by side: columns 16·j … 16·j+15 hold the slab of row
  j of the 8×3200 distance block. So entry (p, c) of the block is the basis value of the distance at (c / 16, p)
  and the frequency c % 16. Each of the eight stores writes the tile of that one function which its rectangle names,
  and the eight rectangles cover the buffer; hence the buffer holds the function.
-/
import proofs.«428367_j2439541424494_3_alg».proof.Proof.Gen.KernelIdeal.Frame
import proofs.«428367_j2439541424494_3_alg».proof.Proof.Slab

set_option maxRecDepth 16384

noncomputable section

namespace Cert.KernelIdeal.Block

open Cert.KernelIdeal Cert.KernelIdeal.Gen Cert.KernelIdeal.Slab Idealize.ShloMosaic Idealize.ShloMosaic.ValueIdx

/-- The block as one function: entry (p, c) from the distance at (c / 16, p) and the frequency c % 16. -/
def blockFn (x0 : Vec Ideal S8x3200 .f32) (x1 : Vec Ideal S16 .f32) : Vec Ideal S3200x128 .f32 := fun y =>
  Cert.Rbf.basisScaled
    (x0 (ix2 (⟨(y 1).val / 16, by have h : (y 1).val < 128 := (y 1).isLt; show (y 1).val / 16 < 8; omega⟩ : Fin 8) (⟨(y 0).val, (y 0).isLt⟩ : Fin 3200)))
    (x1 (ix1 (⟨(y 1).val % 16, Nat.mod_lt _ (by decide)⟩ : Fin 16)))

/-- The slab of row j, stored at columns 16·j …, is the tile of `blockFn` under its rectangle: the row's entry
    (0, p) is the distance block's entry (j, p), and the stored entry (p, r) lands at (p, 16·j + r), whose column
    has quotient j and remainder r by 16. -/
theorem tile_eq (x0 : Vec Ideal S8x3200 .f32) (x1 : Vec Ideal S16 .f32) (jv c : Nat) (hj : jv < 8) (hc : c = 16 * jv)
    (inbL : ∀ a, (![jv, 0] : Fin 2 → Nat) a + S1x3200.size a ≤ S8x3200.size a)
    (inbS : ∀ a, (![0, c] : Fin 2 → Nat) a + S3200x16.size a ≤ S3200x128.size a)
    (x : S3200x16.Idx) :
    slab (F := Ideal) (freqCol (View.ld x1 r0_0)) (View.ld x0 (Rect.unit (s := S8x3200) ![jv, 0] S1x3200.size inbL)) x
      = blockFn x0 x1 ((Rect.unit (s := S3200x128) ![0, c] S3200x16.size inbS).emb x) := by
  obtain ⟨p, r, rfl⟩ : ∃ (p : Fin 3200) (r : Fin 16), x = ix2 p r := ⟨x 0, x 1, eq_ix2 x⟩
  rw [slab_apply, freqCol_apply]
  have hp : p.val < 3200 := p.isLt
  have hr : r.val < 16 := r.isLt
  unfold blockFn
  refine congrArg₂ Cert.Rbf.basisScaled (congrArg x0 ?_) (congrArg x1 ?_)
  · funext a; apply Fin.ext
    match a with
    | ⟨0, _⟩ =>
      show jv + 1 * 0 = (c + 1 * r.val) / 16
      omega
    | ⟨1, _⟩ =>
      show 0 + 1 * p.val = 0 + 1 * p.val
      rfl
  · funext a; apply Fin.ext
    match a with
    | ⟨0, _⟩ =>
      show 0 + 1 * r.val = (c + 1 * r.val) % 16
      omega

/-- The staging buffer after the body is `blockFn` of the two input blocks: the eight stored slabs are its tiles, and
    their rectangles cover the buffer. -/
theorem out_eq (x0 : Vec Ideal S8x3200 .f32) (x1 : Vec Ideal S16 .f32) : out0_2 (F := Ideal) x0 x1 = blockFn x0 x1 := by
  funext y
  unfold out0_2
  simp only [pay3_eq, pay9_eq, pay11_eq, pay17_eq, pay18_eq, pay19_eq, pay1_eq]
  refine View.canon_apply_of_pieces (blockFn x0 x1) _ ?_ y (cover0_2 _ _ _ _ _ _ _ _ y)
  intro q hq x
  simp only [List.mem_cons, List.mem_nil_iff, or_false] at hq
  rcases hq with rfl | rfl | rfl | rfl | rfl | rfl | rfl | rfl
  · exact tile_eq x0 x1 7 112 (by decide) rfl inb_S8x3200_S1x3200_7_0 inb_S3200x128_S3200x16_0_112 x
  · exact tile_eq x0 x1 6 96 (by decide) rfl inb_S8x3200_S1x3200_6_0 inb_S3200x128_S3200x16_0_96 x
  · exact tile_eq x0 x1 5 80 (by decide) rfl inb_S8x3200_S1x3200_5_0 inb_S3200x128_S3200x16_0_80 x
  · exact tile_eq x0 x1 4 64 (by decide) rfl inb_S8x3200_S1x3200_4_0 inb_S3200x128_S3200x16_0_64 x
  · exact tile_eq x0 x1 3 48 (by decide) rfl inb_S8x3200_S1x3200_3_0 inb_S3200x128_S3200x16_0_48 x
  · exact tile_eq x0 x1 2 32 (by decide) rfl inb_S8x3200_S1x3200_2_0 inb_S3200x128_S3200x16_0_32 x
  · exact tile_eq x0 x1 1 16 (by decide) rfl inb_S8x3200_S1x3200_1_0 inb_S3200x128_S3200x16_0_16 x
  · exact tile_eq x0 x1 0 0 (by decide) rfl inb_S8x3200_S1x3200_0_0 inb_S3200x128_S3200x16_0_0 x

end Cert.KernelIdeal.Block

end
-- ==== Proof.Arr.lean ====
/-
  The kernel's output array after the region, as ONE function of the region's two input arrays.

  Grid point t takes columns 3200·t … 3200·t+3199 of the 8×400000 distance array, all 16 frequencies, and writes rows
  3200·t … 3200·t+3199 of the 400000×128 output array. Inside a block, entry (p, c) comes from the distance at
  (c / 16, p); placed in the arrays that is: entry (q, c) of the output comes from the distance at (c / 16, q) and the
  frequency c % 16, for every row q — the same rule at every grid point, so every point writes back the block of one
  whole-array function, and since the 125 row ranges cover all 400000 rows the array ends holding that function.
-/
import proofs.«428367_j2439541424494_3_alg».proof.Proof.Block
import Idealize.ShloMosaic.Lib.Pipeline.Value

set_option maxRecDepth 16384

noncomputable section

namespace Cert.KernelIdeal.Arr

open Cert.KernelIdeal Cert.KernelIdeal.Gen Cert.KernelIdeal.Block Idealize.ShloMosaic Idealize.ShloMosaic.TcCoe
open Idealize.ShloMosaic.ValueIdx Idealize.SL.Sem
open Idealize.ShloMosaic.Pipeline (Dat)

variable (m : (ℓ : Loc nD τ sig) → Buf (Elt Ideal) ℓ)

/-- The output array as one function: entry (q, c) from the distance at (c / 16, q) and the frequency c % 16. -/
def arrayFn (D : Vec Ideal S8x400000 .f32) (fr : Vec Ideal S16 .f32) : Vec Ideal S400000x128 .f32 := fun i =>
  Cert.Rbf.basisScaled
    (D (ix2 (⟨(i 1).val / 16, by have h : (i 1).val < 128 := (i 1).isLt; show (i 1).val / 16 < 8; omega⟩ : Fin 8) (⟨(i 0).val, (i 0).isLt⟩ : Fin 400000)))
    (fr (ix1 (⟨(i 1).val % 16, Nat.mod_lt _ (by decide)⟩ : Fin 16)))

/-- The printed index maps over the 125 grid points: the distance window moves along its second axis with the point,
    the frequency window stays, the output window moves along its first axis with the point. -/
theorem idx_facts : ∀ t : Fin cfg0.N, win0_0.index t (0 : Fin 2) = 0 ∧ win0_0.index t (1 : Fin 2) = t.val
    ∧ win0_1.index t (0 : Fin 1) = 0 ∧ win0_2.index t (0 : Fin 2) = t.val ∧ win0_2.index t (1 : Fin 2) = 0 :=
  (by decide +kernel : ∀ t : Fin grid0.N, _)

/-- Block t of `arrayFn`, for ANY contents `A0`, `A1` of the two input arrays: `blockFn` of the two arrays' blocks at
    point t is the block at point t of `arrayFn` of the arrays. An input entry (j, p) of the distance block is the
    array's entry (j, 3200·t + p), the output entry (p, c) of the block is the array's entry (3200·t + p, c); the frequency
    block is the whole frequency array. -/
theorem block_of_arrays (c : Dev nD) (t : Fin cfg0.N)
    (A0 : Buf (Elt Ideal) ((c : Thread nD τ).loc (Pipeline.arrRef spec0 0)))
    (A1 : Buf (Elt Ideal) ((c : Thread nD τ).loc (Pipeline.arrRef spec0 1))) :
    (cfg0.win 2).cut (grid0.coords t)
        (blockFn (((cfg0.win 0).blk t).view.read (Elt Ideal) A0) (((cfg0.win 1).blk t).view.read (Elt Ideal) A1))
      = ((cfg0.win 2).blk t).view.read (Elt Ideal) (arrayFn A0 A1) := by
  obtain ⟨e0, e1, e2, e3, e4⟩ := idx_facts t
  funext y
  have hy0 : (y 0).val < 3200 := (y 0).isLt
  have hy1 : (y 1).val < 128 := (y 1).isLt
  show Cert.Rbf.basisScaled
      (A0 (((cfg0.win 0).blk t).view.emb (ix2 (⟨(y 1).val / 16, by omega⟩ : Fin 8) (⟨(y 0).val, hy0⟩ : Fin 3200))))
      (A1 (((cfg0.win 1).blk t).view.emb (ix1 (⟨(y 1).val % 16, Nat.mod_lt _ (by decide)⟩ : Fin 16))))
    = arrayFn A0 A1 (((cfg0.win 2).blk t).view.emb y)
  unfold arrayFn
  refine congrArg₂ Cert.Rbf.basisScaled (congrArg A0 ?_) (congrArg A1 ?_)
  · funext a; apply Fin.ext
    match a with
    | ⟨0, _⟩ =>
      show win0_0.index t (0 : Fin 2) * 8 + 1 * ((y 1).val / 16) = (win0_2.index t (1 : Fin 2) * 128 + 1 * (y 1).val) / 16
      omega
    | ⟨1, _⟩ =>
      show win0_0.index t (1 : Fin 2) * 3200 + 1 * (y 0).val = win0_2.index t (0 : Fin 2) * 3200 + 1 * (y 0).val
      omega
  · funext a; apply Fin.ext
    match a with
    | ⟨0, _⟩ =>
      show win0_1.index t (0 : Fin 1) * 16 + 1 * ((y 1).val % 16) = (win0_2.index t (1 : Fin 2) * 128 + 1 * (y 1).val) % 16
      omega

/-- What point t writes back is block t of `arrayFn` of the distance array and the frequencies as the region finds
    them. -/
theorem flushed_eq (c : Dev nD) (t : Fin cfg0.N) :
    (dats m 0 c).flushed 2 t
      = ((cfg0.win 2).blk t).view.read (Elt Ideal)
          (arrayFn (V m c (Pipeline.arrRef spec0 0)) (V m c (Pipeline.arrRef spec0 1))) := by
  show (cfg0.win 2).cut (grid0.coords t) ((dats m 0 c).after 2 t) = _
  rw [after0_2]
  rw [out_eq (iblk m c 0 t) (iblk m c 1 t)]
  exact block_of_arrays c t (V m c (Pipeline.arrRef spec0 0)) (V m c (Pipeline.arrRef spec0 1))

/-- An index of the output array is in point t's block iff each coordinate is in the block's range on its axis. -/
theorem mem_blk (t : Fin cfg0.N) (i : S400000x128.Idx) :
    i ∈ ((cfg0.win 2).blk t).view.set ↔ ∀ a : Fin 2, win0_2.index t a * S3200x128.size a ≤ (i a).val
      ∧ (i a).val < win0_2.index t a * S3200x128.size a + S3200x128.size a := by
  show i ∈ ((View.whole main_v21).slice (win0_2.rect t)).set ↔ _
  rw [View.set_slice_whole, Rect.mem_set_unit]
  exact Iff.rfl

/-- Every index of the output array is in the block of the point its row falls to. -/
theorem cover (i : S400000x128.Idx) :
    ∃ t : Fin cfg0.N, (cfg0.win 2).flush t = true ∧ i ∈ ((cfg0.win 2).blk t).view.set := by
  have hi0 : (i 0).val < 400000 := (i 0).isLt
  have hi1 : (i 1).val < 128 := (i 1).isLt
  have hN : (i 0).val / 3200 < grid0.N := by rw [N_0]; omega
  obtain ⟨e0, e1, e2, e3, e4⟩ := idx_facts (⟨(i 0).val / 3200, hN⟩ : Fin cfg0.N)
  refine ⟨⟨(i 0).val / 3200, hN⟩, flush0_2 _, ?_⟩
  rw [mem_blk]
  intro a
  match a with
  | ⟨0, _⟩ =>
    show win0_2.index ⟨(i 0).val / 3200, hN⟩ (0 : Fin 2) * 3200 ≤ (i 0).val
      ∧ (i 0).val < win0_2.index ⟨(i 0).val / 3200, hN⟩ (0 : Fin 2) * 3200 + 3200
    rw [e3]
    show (i 0).val / 3200 * 3200 ≤ (i 0).val ∧ (i 0).val < (i 0).val / 3200 * 3200 + 3200
    omega
  | ⟨1, _⟩ =>
    show win0_2.index ⟨(i 0).val / 3200, hN⟩ (1 : Fin 2) * 128 ≤ (i 1).val
      ∧ (i 1).val < win0_2.index ⟨(i 0).val / 3200, hN⟩ (1 : Fin 2) * 128 + 128
    rw [e4]
    omega

/-- The output array after the run is `arrayFn` of the distance array and the frequencies as the region finds them. -/
theorem final (c : Dev nD) :
    (dats m 0 c).arrAt 2 cfg0.N = arrayFn (V m c (Pipeline.arrRef spec0 0)) (V m c (Pipeline.arrRef spec0 1)) :=
  (dats m 0 c).arrAt_eq_of_cover 2 _ (fun t _ => flushed_eq m c t) cover

end Cert.KernelIdeal.Arr

end
-- ==== Proof.KernelRun.lean ====
/-
  The idealized kernel's run, read as a value: its result array as ONE function of the distance vector and the
  frequencies.

  Before the region the host lays the 3200000 distances out as 400000 groups of 8 and transposes, so the region's
  distance array has entry (j, q) = distance of edge 8·q + j. After the region the host reads the 400000×128 output
  array as 3200000×16: entry (e, r) is the array's entry (e / 8, 16·(e % 8) + r). Through the region's rule — entry
  (q, c) from the distance array at (c / 16, q) and the frequency c % 16 — entry (e, r) of the result comes from the
  distance array at (e % 8, e / 8), which is the distance of edge 8·(e / 8) + e % 8 = e, and from the frequency r.
  The two regroupings undo each other and the result is the basis value of edge e and frequency r.
-/
import proofs.«428367_j2439541424494_3_alg».proof.Proof.Arr
import Idealize.ShloMosaic.Lib.StableHlo.Run

set_option maxRecDepth 16384

noncomputable section

namespace Cert.KernelIdeal.HostSides

open Cert.KernelIdeal Cert.KernelIdeal.Gen Cert.KernelIdeal.Arr Idealize.ShloMosaic Idealize.ShloMosaic.TcCoe
open Idealize.ShloMosaic.ValueIdx Idealize.SL.Sem Idealize.ShloMosaic.StableHlo

/-! ## The two regroupings, read at an index (for any contents) -/

section Regroup
variable {α : Type}

/-- Groups of 8 transposed: entry (j, q) is the vector's entry 8·q + j. -/
theorem grouped_apply (D : S3200000.Idx → α) (h1 : S3200000.ShapeCasts S400000x8) (h2 : S400000x8.Transposes [1, 0] S8x400000)
    (j : Fin 8) (q : Fin 400000) (k : Fin 3200000) (hk : k.val = 8 * q.val + j.val) :
    transpose S8x400000 [1, 0] (shapeCast S400000x8 D h1) h2 (ix2 j q) = D (ix1 k) := by
  refine (transpose_apply [1, 0] _ h2 (ix2 j q) (ix2 q j) (fun b => by
    match b with
    | ⟨0, _⟩ => rfl
    | ⟨1, _⟩ => rfl)).trans ?_
  exact shapeCast_apply D h1 (ix2 q j) (ix1 k) (by
    rw [Shape.rowMajor_val_one, Shape.rowMajor_val_two]
    show k.val = q.val * 8 + j.val
    omega)

/-- The 400000×128 array read as 3200000×16: entry (e, r) is the array's entry (q, c) with 128·q + c = 16·e + r. -/
theorem ungrouped_apply (A : S400000x128.Idx → α) (h : S400000x128.ShapeCasts S3200000x16)
    (e : Fin 3200000) (r : Fin 16) (q : Fin 400000) (c : Fin 128) (hqc : q.val * 128 + c.val = e.val * 16 + r.val) :
    shapeCast S3200000x16 A h (ix2 e r) = A (ix2 q c) :=
  shapeCast_apply A h (ix2 e r) (ix2 q c) (by
    rw [Shape.rowMajor_val_two, Shape.rowMajor_val_two]
    show q.val * 128 + c.val = e.val * 16 + r.val
    exact hqc)

end Regroup

/-- The kernel's result as one function of the distance vector and the frequencies: entry (e, r) from the distance of
    edge e and the frequency r. -/
def resultFn (D : Vec Ideal S3200000 .f32) (fr : Vec Ideal S16 .f32) : Vec Ideal S3200000x16 .f32 := fun i =>
  Cert.Rbf.basisScaled (D (ix1 (⟨(i 0).val, (i 0).isLt⟩ : Fin 3200000))) (fr (ix1 (⟨(i 1).val, (i 1).isLt⟩ : Fin 16)))

/-- The region's rule between the two regroupings is `resultFn`, for any distance vector and frequencies. -/
theorem regrouped_eq (D : Vec Ideal S3200000 .f32) (fr : Vec Ideal S16 .f32)
    (h1 : S3200000.ShapeCasts S400000x8) (h2 : S400000x8.Transposes [1, 0] S8x400000) (h3 : S400000x128.ShapeCasts S3200000x16) :
    shapeCast S3200000x16 (arrayFn (transpose S8x400000 [1, 0] (shapeCast S400000x8 D h1) h2) fr) h3 = resultFn D fr := by
  funext i
  obtain ⟨e, r, rfl⟩ : ∃ (e : Fin 3200000) (r : Fin 16), i = ix2 e r := ⟨i 0, i 1, eq_ix2 i⟩
  have he : e.val < 3200000 := e.isLt
  have hr : r.val < 16 := r.isLt
  refine (ungrouped_apply _ h3 e r (⟨e.val / 8, by omega⟩ : Fin 400000) (⟨16 * (e.val % 8) + r.val, by omega⟩ : Fin 128)
    (by show e.val / 8 * 128 + (16 * (e.val % 8) + r.val) = e.val * 16 + r.val; omega)).trans ?_
  unfold arrayFn resultFn
  refine congrArg₂ Cert.Rbf.basisScaled ?_ (congrArg fr ?_)
  · refine (grouped_apply D h1 h2 _ _ e ?_)
    show e.val = 8 * (e.val / 8) + (16 * (e.val % 8) + r.val) / 16
    omega
  · funext a; apply Fin.ext
    match a with
    | ⟨0, _⟩ =>
      show (16 * (e.val % 8) + r.val) % 16 = r.val
      omega

/-! ## The host operations around the region -/

variable (m : (ℓ : Loc nD τ sig) → Buf (Elt Ideal) ℓ) (ρ : Dev nD → PrngReg)

/-- What the region finds in its distance array: the distance vector in groups of 8, transposed. -/
theorem dist8_eq (c : Dev nD) :
    V m c main_v20 = transpose S8x400000 [1, 0] (shapeCast S400000x8 (V m c main_v18) shapeCasts_S3200000_S400000x8)
      transposes_S400000x8_S8x400000_1_0 := by
  dsimp only [V, V0]
  simp only [hostOps0, hostOps0_1, hostOps0_2, List.flatten_cons, List.flatten_nil, List.append_nil, List.cons_append, List.nil_append]
  after_results_simp
  rfl

/-- What the program returns: the region's output array read as 3200000×16. -/
theorem tail_eq (c : Dev nD) :
    Pipeline.afterTail₀ cfgs (dats m) 0 (V0 m) [hostOps1] c main_v22
      = shapeCast S3200000x16 ((dats m 0 c).arrAt 2 cfg0.N) shapeCasts_S400000x128_S3200000x16 := by
  unfold Pipeline.afterTail₀
  show StableHlo.after hostOps1 _ (Proc.devRef .tc main_v22) = _
  after_results
  have hw : Pipeline.withArrays (cfgs 0).spec c (V0 m c) (fun w => (dats m 0 c).arrAt w (cfgs 0).N) (Proc.devRef .tc main_v21)
      = (dats m 0 c).arrAt 2 cfg0.N := Pipeline.withArrays_arr spec0 launch0.win.arr_inj c _ _ 2
  rw [hw]
  rfl

/-- The returned array is `resultFn` of the distance vector as the host computed it and of the frequencies as launched. -/
theorem value_eq (c : Dev nD) :
    Pipeline.afterTail₀ cfgs (dats m) 0 (V0 m) [hostOps1] c main_v22
      = resultFn (V m c main_v18) (m ((c.tc : Thread nD τ).loc main_arg1)) := by
  have e0 : V m c (Pipeline.arrRef spec0 0) = transpose S8x400000 [1, 0]
      (shapeCast S400000x8 (V m c main_v18) shapeCasts_S3200000_S400000x8) transposes_S400000x8_S8x400000_1_0 := dist8_eq m c
  have e1 : V m c (Pipeline.arrRef spec0 1) = m ((c.tc : Thread nD τ).loc main_arg1) := V_main_arg1 m c
  rw [tail_eq, Arr.final, e0, e1]
  exact regrouped_eq _ _ _ _ _

/-- The idealized kernel's run with its result NAMED: every weakly fair execution terminates, the returned array is
    `resultFn` of the distance vector and the frequencies, and the arguments end as launched. -/
theorem run : θ_run defs (onTc (τ := τ) (main (F := Ideal))) ⟨m, fun _ => 0, ρ⟩ (fun r => ∀ c : Dev nD,
      r.2.mem ((c.tc : Thread nD τ).loc main_v22) = resultFn (V m c main_v18) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v22 (Pipeline.mem_restRefs_of main_v22 (by decide) (by decide))).trans (value_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.HostSides

end
-- ==== Proof.RefValue.lean ====
/-
  The reference's result at an index.

  Entry (e, r) of the reference's result is the basis value of the distance of edge e and the frequency r, the distance
  scaled by the quotient by the cutoff: read off the generated stages one operation at a time. The broadcasts only move
  the index (the distance-indexed vectors are read at e, the frequencies at r, the scalar constants anywhere), the
  arithmetic in between is entry by entry, and the distance vector itself — the gathers, the squared differences
  summed over the three coordinates, the clamp at zero and the square root — is left as the stage it is: the kernel
  computes it by the same operations, and nothing below needs to look inside.
-/
import proofs.«428367_j2439541424494_3_alg».proof.Proof.Gen.ReferenceIdeal.Read
import proofs.«428367_j2439541424494_3_alg».proof.Proof.Envelope
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx

/-- The distance of every edge, as the reference computes it from the positions and the two index vectors. -/
abbrev dist (x0 : (⟨S100000x3, .f32⟩ : BufTy).Contents (Elt Ideal)) (x2 x3 : (⟨S3200000, .i32⟩ : BufTy).Contents (Elt Ideal)) :
    (⟨S3200000, .f32⟩ : BufTy).Contents (Elt Ideal) := val_main_v18 (F := Ideal) x0 x2 x3

/-- The reference's result as one function of the arguments: entry (e, r) from the distance of edge e and the
    frequency r. -/
def resultFn (x0 : (⟨S100000x3, .f32⟩ : BufTy).Contents (Elt Ideal)) (x1 : (⟨S16, .f32⟩ : BufTy).Contents (Elt Ideal))
    (x2 x3 : (⟨S3200000, .i32⟩ : BufTy).Contents (Elt Ideal)) : (⟨S3200000x16, .f32⟩ : BufTy).Contents (Elt Ideal) := fun i =>
  Cert.Rbf.basisDivided (dist x0 x2 x3 (ix1 (⟨(i 0).val, (i 0).isLt⟩ : Fin 3200000))) (x1 (ix1 (⟨(i 1).val, (i 1).isLt⟩ : Fin 16)))

/-- The reference's last stage is `resultFn`. -/
theorem result_eq (x0 : (⟨S100000x3, .f32⟩ : BufTy).Contents (Elt Ideal)) (x1 : (⟨S16, .f32⟩ : BufTy).Contents (Elt Ideal))
    (x2 x3 : (⟨S3200000, .i32⟩ : BufTy).Contents (Elt Ideal)) :
    val_main_v46 (F := Ideal) x0 x1 x2 x3 = resultFn x0 x1 x2 x3 := by
  funext i
  obtain ⟨e, r, rfl⟩ : ∃ (e : Fin 3200000) (r : Fin 16), i = ix2 e r := ⟨i 0, i 1, eq_ix2 i⟩
  have h45 : idx_main_v45 (ix2 e r) = ix2 e 0 := funext fun a => Fin.ext (by match a with | ⟨0, _⟩ => rfl | ⟨1, _⟩ => rfl)
  have h38 : idx_main_v38 (ix2 e (0 : Fin 1)) = ix1 e := funext fun a => Fin.ext (by match a with | ⟨0, _⟩ => rfl)
  have h42 : idx_main_v42 (ix2 e r) = ix2 e 0 := funext fun a => Fin.ext (by match a with | ⟨0, _⟩ => rfl | ⟨1, _⟩ => rfl)
  have h40 : idx_main_v40 (ix2 e (0 : Fin 1)) = ix1 e := funext fun a => Fin.ext (by match a with | ⟨0, _⟩ => rfl)
  have h41 : idx_main_v41 (ix2 e r) = ix2 0 r := funext fun a => Fin.ext (by match a with | ⟨0, _⟩ => rfl | ⟨1, _⟩ => rfl)
  have h39 : idx_main_v39 (ix2 (0 : Fin 1) r) = ix1 r := funext fun a => Fin.ext (by match a with | ⟨0, _⟩ => rfl)
  simp only [val_main_v46_apply, val_main_v45_apply, val_main_v44_apply, val_main_v43_apply, val_main_v42_apply,
    val_main_v41_apply, val_main_v40_apply, val_main_v39_apply, val_main_v38_apply, val_main_v37_apply,
    val_main_v36_apply, val_main_v35_apply, val_main_v34_apply, val_main_v33_apply, val_main_cst_7_apply,
    val_main_v32_apply, val_main_v31_apply, val_main_v30_apply, val_main_v29_apply, val_main_cst_6_apply,
    val_main_v28_apply, val_main_v27_apply, val_main_v26_apply, val_main_cst_5_apply, val_main_v25_apply,
    val_main_v24_apply, val_main_cst_4_apply, val_main_v23_apply, val_main_v22_apply, val_main_v21_apply,
    val_main_v20_apply, val_main_v19_apply, val_main_cst_3_apply, h45, h38, h42, h40, h41, h39]
  rfl

end Cert.ReferenceIdeal.RefValue

end
-- ==== Proof.Bridge.lean ====
/-
  The two programs compute one function.

  The kernel's host operations before its region compute the distance vector by exactly the operations of the
  reference — the same index fix-up (a negative index moved up by the table's length), the same two gathers, the same
  difference, square, sum over the three coordinates from the same zero, the same clamp at zero and the same square
  root — so on arguments that agree the two distance vectors are one term. On top of it the kernel's result is the
  basis value with the distance scaled by the product with 1/5 and the powers built upwards, the reference's the basis
  value with the distance divided by 5 and the factors multiplied on afterwards: one function on the extended reals
  (the law of the pointwise module), index by index.
-/
import proofs.«428367_j2439541424494_3_alg».proof.Proof.KernelRun
import proofs.«428367_j2439541424494_3_alg».proof.Proof.RefValue

set_option maxRecDepth 16384

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ)

/-- The distance of every edge from the positions `x0` and the two index vectors, spelt as the kernel's host operations
    spell it: each index moved up by the table's length if negative, the two rows gathered, their difference squared
    and summed over the three coordinates from zero, clamped at zero, and the square root taken. -/
def edgeDist (x0 : FVec Ideal Cert.KernelIdeal.S100000x3 .f32) (x2 x3 : IVec Cert.KernelIdeal.S3200000 32) :
    FVec Ideal Cert.KernelIdeal.S3200000 .f32 :=
  Host.sqrt (maximumf
    (Host.reduceAdd
      (mulf
        (subf
          (Host.gather Cert.KernelIdeal.gather_S100000x3_S3200000x1_S3200000x3_1_0_n_n_0_1_13 x0
            (broadcastInDim Cert.KernelIdeal.S3200000x1 ![0] Cert.KernelIdeal.Gen.bcast_S3200000_S3200000x1_0
              (select (cmpi .slt x2 (broadcastInDim Cert.KernelIdeal.S3200000 ![] Cert.KernelIdeal.Gen.bcast_S_S3200000 (constantI Cert.KernelIdeal.S_ 32 0#32)))
                (addi x2 (broadcastInDim Cert.KernelIdeal.S3200000 ![] Cert.KernelIdeal.Gen.bcast_S_S3200000 (constantI Cert.KernelIdeal.S_ 32 100000#32)))
                x2)))
          (Host.gather Cert.KernelIdeal.gather_S100000x3_S3200000x1_S3200000x3_1_0_n_n_0_1_13 x0
            (broadcastInDim Cert.KernelIdeal.S3200000x1 ![0] Cert.KernelIdeal.Gen.bcast_S3200000_S3200000x1_0
              (select (cmpi .slt x3 (broadcastInDim Cert.KernelIdeal.S3200000 ![] Cert.KernelIdeal.Gen.bcast_S_S3200000 (constantI Cert.KernelIdeal.S_ 32 0#32)))
                (addi x3 (broadcastInDim Cert.KernelIdeal.S3200000 ![] Cert.KernelIdeal.Gen.bcast_S_S3200000 (constantI Cert.KernelIdeal.S_ 32 100000#32)))
                x3))))
        (subf
          (Host.gather Cert.KernelIdeal.gather_S100000x3_S3200000x1_S3200000x3_1_0_n_n_0_1_13 x0
            (broadcastInDim Cert.KernelIdeal.S3200000x1 ![0] Cert.KernelIdeal.Gen.bcast_S3200000_S3200000x1_0
              (select (cmpi .slt x2 (broadcastInDim Cert.KernelIdeal.S3200000 ![] Cert.KernelIdeal.Gen.bcast_S_S3200000 (constantI Cert.KernelIdeal.S_ 32 0#32)))
                (addi x2 (broadcastInDim Cert.KernelIdeal.S3200000 ![] Cert.KernelIdeal.Gen.bcast_S_S3200000 (constantI Cert.KernelIdeal.S_ 32 100000#32)))
                x2)))
          (Host.gather Cert.KernelIdeal.gather_S100000x3_S3200000x1_S3200000x3_1_0_n_n_0_1_13 x0
            (broadcastInDim Cert.KernelIdeal.S3200000x1 ![0] Cert.KernelIdeal.Gen.bcast_S3200000_S3200000x1_0
              (select (cmpi .slt x3 (broadcastInDim Cert.KernelIdeal.S3200000 ![] Cert.KernelIdeal.Gen.bcast_S_S3200000 (constantI Cert.KernelIdeal.S_ 32 0#32)))
                (addi x3 (broadcastInDim Cert.KernelIdeal.S3200000 ![] Cert.KernelIdeal.Gen.bcast_S_S3200000 (constantI Cert.KernelIdeal.S_ 32 100000#32)))
                x3)))))
      (constant Cert.KernelIdeal.S_ .f32 0x00000000#32) Cert.KernelIdeal.Gen.reducesTo_S3200000x3_S3200000_d1 Cert.KernelIdeal.Gen.h_S_)
    (broadcastInDim Cert.KernelIdeal.S3200000 ![] Cert.KernelIdeal.Gen.bcast_S_S3200000 (constant Cert.KernelIdeal.S_ .f32 0x00000000#32)))

/-- The clamp at zero and the square root, as the host's call of the outlined clamp leaves them (its buffers' typed
    references transport contents along equations that hold by computation), are the plain clamp and square root. -/
theorem clamp_sqrt_plain (q : FVec Ideal Cert.KernelIdeal.S3200000 .f32) :
    Host.sqrt (F := Ideal) (s := Cert.KernelIdeal.S3200000) (φ := .f32)
      ((TRef.of (T := ⟨Cert.KernelIdeal.S3200000, .f32⟩) Cert.KernelIdeal.main_v17).toBuf (Val := Elt Ideal)
        (maximumf (F := Ideal) (s := Cert.KernelIdeal.S3200000) (φ := .f32)
          ((TRef.of (T := ⟨Cert.KernelIdeal.S3200000, .f32⟩) Cert.KernelIdeal.main_v16).ofBuf (Val := Elt Ideal) q)
          ((TRef.of (T := ⟨Cert.KernelIdeal.S3200000, .f32⟩) Cert.KernelIdeal.main_call0_v0).ofBuf (Val := Elt Ideal)
            ((TRef.of (T := ⟨Cert.KernelIdeal.S3200000, .f32⟩) Cert.KernelIdeal.main_call0_v0).toBuf (Val := Elt Ideal)
              (broadcastInDim Cert.KernelIdeal.S3200000 ![] Cert.KernelIdeal.Gen.bcast_S_S3200000
                ((TRef.of (T := ⟨Cert.KernelIdeal.S_, .f32⟩) Cert.KernelIdeal.main_call0_cst).ofBuf (Val := Elt Ideal)
                  ((TRef.of (T := ⟨Cert.KernelIdeal.S_, .f32⟩) Cert.KernelIdeal.main_call0_cst).toBuf (Val := Elt Ideal)
                    (constant (F := Ideal) Cert.KernelIdeal.S_ .f32 0#32))))))))
    = Host.sqrt (F := Ideal) (s := Cert.KernelIdeal.S3200000) (φ := .f32) (maximumf (F := Ideal) (s := Cert.KernelIdeal.S3200000) (φ := .f32) q
        (broadcastInDim Cert.KernelIdeal.S3200000 ![] Cert.KernelIdeal.Gen.bcast_S_S3200000 (constant (F := Ideal) Cert.KernelIdeal.S_ .f32 0#32))) := rfl

/-- The kernel's host prefix leaves `edgeDist` of the arguments in its distance vector. -/
theorem prefix_eq (c : Dev Cert.KernelIdeal.nD) :
    Cert.KernelIdeal.Gen.V m c Cert.KernelIdeal.main_v18
      = edgeDist
          (m ((c.tc : Thread Cert.KernelIdeal.nD Cert.KernelIdeal.τ).loc Cert.KernelIdeal.main_arg0))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  dsimp only [Cert.KernelIdeal.Gen.V, Cert.KernelIdeal.Gen.V0]
  simp only [Cert.KernelIdeal.Gen.hostOps0, Cert.KernelIdeal.Gen.hostOps0_1, Cert.KernelIdeal.Gen.hostOps0_2,
    List.flatten_cons, List.flatten_nil, List.append_nil, List.cons_append, List.nil_append]
  after_results_simp
  refine (clamp_sqrt_plain _).trans ?_
  unfold edgeDist
  rfl

/-- `edgeDist` is the reference's distance stage: the same operations, literal by literal. -/
theorem edgeDist_eq (x0 : FVec Ideal Cert.KernelIdeal.S100000x3 .f32) (x2 x3 : IVec Cert.KernelIdeal.S3200000 32) :
    edgeDist x0 x2 x3 = Cert.ReferenceIdeal.RefValue.dist x0 x2 x3 := by
  unfold edgeDist
  show _ = Cert.ReferenceIdeal.Read.val_main_v18 (F := Ideal) _ _ _
  unfold Cert.ReferenceIdeal.Read.val_main_v18 Cert.ReferenceIdeal.Read.val_main_v17 Cert.ReferenceIdeal.Read.val_main_v16
    Cert.ReferenceIdeal.Read.val_main_v15 Cert.ReferenceIdeal.Read.val_main_v14 Cert.ReferenceIdeal.Read.val_main_v13
    Cert.ReferenceIdeal.Read.val_main_v12 Cert.ReferenceIdeal.Read.val_main_v11 Cert.ReferenceIdeal.Read.val_main_v10
    Cert.ReferenceIdeal.Read.val_main_v9 Cert.ReferenceIdeal.Read.val_main_c_2 Cert.ReferenceIdeal.Read.val_main_v8
    Cert.ReferenceIdeal.Read.val_main_v7 Cert.ReferenceIdeal.Read.val_main_c_1 Cert.ReferenceIdeal.Read.val_main_v6
    Cert.ReferenceIdeal.Read.val_main_v5 Cert.ReferenceIdeal.Read.val_main_v4 Cert.ReferenceIdeal.Read.val_main_v3
    Cert.ReferenceIdeal.Read.val_main_v2 Cert.ReferenceIdeal.Read.val_main_c_0 Cert.ReferenceIdeal.Read.val_main_v1
    Cert.ReferenceIdeal.Read.val_main_v0 Cert.ReferenceIdeal.Read.val_main_c Cert.ReferenceIdeal.Read.val_main_cst
    Cert.ReferenceIdeal.Read.val_main_call0_v0 Cert.ReferenceIdeal.Read.val_main_call0_cst
  rfl

/-- The distance vector the kernel's host prefix leaves is the reference's distance stage of the same arguments. -/
theorem dist_eq (c : Dev Cert.KernelIdeal.nD) :
    Cert.KernelIdeal.Gen.V m c Cert.KernelIdeal.main_v18
      = Cert.ReferenceIdeal.RefValue.dist
          (m ((c.tc : Thread Cert.KernelIdeal.nD Cert.KernelIdeal.τ).loc Cert.KernelIdeal.main_arg0))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) :=
  (prefix_eq m c).trans (edgeDist_eq _ _ _)

/-- The kernel's result function of its distance vector and frequencies is the reference's result function of the
    same arguments. -/
theorem result_eq (c : Dev Cert.KernelIdeal.nD) :
    Cert.KernelIdeal.HostSides.resultFn (Cert.KernelIdeal.Gen.V m c Cert.KernelIdeal.main_v18)
        (m ((c.tc : Thread Cert.KernelIdeal.nD Cert.KernelIdeal.τ).loc Cert.KernelIdeal.main_arg1))
      = Cert.ReferenceIdeal.RefValue.resultFn
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  funext i
  unfold Cert.KernelIdeal.HostSides.resultFn Cert.ReferenceIdeal.RefValue.resultFn
  rw [Cert.Rbf.basisScaled_eq_basisDivided, dist_eq]

end Cert.Bridge

end
-- ==== Proof.lean ====
/-
  Radial basis functions of edge distances: a Pallas kernel against its jnp reference, over the extended reals.

  Both programs take node positions R (100000×3), 16 frequencies and two index vectors of 3200000 edges, form the
  distance d_e = sqrt(max(Σ_k (R[i_e,k] − R[j_e,k])², 0)) of every edge on the host, and return, for every edge e and
  frequency r, env(x_e)·sin(f_r·x_e) with x_e the distance over the cutoff 5 and
  env(x) = 1/x − 28·x⁵ + 48·x⁶ − 21·x⁷.

  The reference does this in one pass over 3200000×16. The kernel regroups the distances as 8×400000 (entry (j, q) is
  edge 8·q + j), walks 125 blocks of 3200 columns, and for each of the 8 rows of a block writes a 16-column slab of a
  3200×128 output block; the 400000×128 output array read as 3200000×16 is the result. It multiplies by the constant
  1/5 where the reference divides by 5, and builds the powers of x in another order.

  The proof, module by module:
    Envelope   the two arrangements of one basis value are one function on the extended reals (division by 5 is the
               product with 1/5; commutativity and associativity of the product; nothing needs finiteness);
    Slab       the eight slabs of the body are one term, and that term at an index;
    Block      the staging buffer after the body as one function of the two input blocks;
    Arr        the output array after the region as one function of the region's input arrays (every grid point writes
               the block of one whole-array function, and the blocks cover the array);
    KernelRun  the host regrouping before and after the region undo each other; the kernel's run with its result named;
    RefValue   the reference's result at an index, read off its stages down to the distance vector;
    Bridge     the kernel's host prefix is the reference's distance stage, and the two result functions are one.
  The frames of the two kernel programs are the generated ones; the reference's frame is its generated run with the
  result dropped. The eight ledger entries are eight uses of the one named constant 1/5.
-/
import proofs.«428367_j2439541424494_3_alg».proof.Defs
import proofs.«428367_j2439541424494_3_alg».proof.Proof.Gen.Kernel
import proofs.«428367_j2439541424494_3_alg».proof.Proof.Gen.Kernel.Frame
import proofs.«428367_j2439541424494_3_alg».proof.Proof.Gen.KernelIdeal
import proofs.«428367_j2439541424494_3_alg».proof.Proof.Gen.KernelIdeal.Frame
import proofs.«428367_j2439541424494_3_alg».proof.Proof.Gen.ReferenceIdeal
import proofs.«428367_j2439541424494_3_alg».proof.Proof.Gen.ReferenceIdeal.Run
import proofs.«428367_j2439541424494_3_alg».proof.Proof.Gen.ReferenceIdeal.Read
import proofs.«428367_j2439541424494_3_alg».proof.Proof.Gen.Pre_finite_inputs
import proofs.«428367_j2439541424494_3_alg».proof.Proof.KernelRun
import proofs.«428367_j2439541424494_3_alg».proof.Proof.RefValue
import proofs.«428367_j2439541424494_3_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_k : Cert.frame_Kernel := fun m ρ _ => Cert.Kernel.Gen.frame m ρ

/-- The idealized kernel runs and keeps its arguments: the generated frame. -/
theorem frame_ki : Cert.frame_KernelIdeal := fun m ρ _ => Cert.KernelIdeal.Gen.frame m ρ

/-- The idealized reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- One use of the named constant: the table gives "inv_5" the rational 1/5, and the printed constant is that value. -/
theorem named_fifth : IdealRules.named_const.Statement Cert.KernelIdeal.κ "inv_5" .f32 0x3E4CCCCD#32 ((1 / 5 : ℝ) : EReal) :=
  IdealRules.named_const.statement Cert.KernelIdeal.κ "inv_5" .f32 0x3E4CCCCD#32 ((1 / 5 : ℝ) : EReal) rfl

/-- The ledger: the scale 1/5 is named once per row of the distance block, eight times. -/
theorem preserves : Cert.preserves_Kernel_KernelIdeal :=
  ⟨named_fifth, named_fifth, named_fifth, named_fifth, named_fifth, named_fifth, named_fifth, named_fifth⟩

/-- From arguments that agree, the idealized kernel ends at its result function of the distance vector its host prefix
    computed, the idealized reference at its last stage; both are the reference's result function of the arguments. -/
theorem algebraic : Cert.algebraic_KernelIdeal_ReferenceIdeal := by
  intro m ρ m' ρ' _ hagree
  refine ⟨fun c => Cert.ReferenceIdeal.RefValue.resultFn
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)), ?_, ?_⟩
  · refine (θ_run Cert.KernelIdeal.defs _ _).mono (fun _ h c => ⟨(h c).1.trans ?_, (h c).2⟩)
      (Cert.KernelIdeal.HostSides.run m ρ)
    show Cert.KernelIdeal.HostSides.resultFn _ _ = Cert.ReferenceIdeal.RefValue.resultFn _ _ _ _
    rw [(hagree c).1, (hagree c).2.1, (hagree c).2.2.1, (hagree c).2.2.2]
    exact Cert.Bridge.result_eq m c
  · refine (θ_run Cert.ReferenceIdeal.defs _ _).mono (fun _ h c => ⟨(h c).1.trans ?_, (h c).2⟩)
      (Cert.ReferenceIdeal.Value.run (F := Ideal) m' ρ')
    show Cert.ReferenceIdeal.Value.res_main_v46 m' c = Cert.ReferenceIdeal.RefValue.resultFn _ _ _ _
    rw [Cert.ReferenceIdeal.Read.val_main_v46_eq]
    exact Cert.ReferenceIdeal.RefValue.result_eq _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
